-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x795 : Shape := ⟨2, ![65536, 795]⟩
abbrev S512x795 : Shape := ⟨2, ![512, 795]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S14x128 : Shape := ⟨2, ![14, 128]⟩
abbrev S14 : Shape := ⟨1, ![14]⟩
abbrev S_ : Shape := ⟨0, ![]⟩

class Facts : Prop where
  bcast_S_S65536x795 : S_.BroadcastsInDim S65536x795 (![] : Fin 0 → Fin S65536x795.rank)
  reducesTo_S65536x795_S_d0_1 : S65536x795.ReducesTo [0, 1] S_
  h_S_ : 0 < S_.numel
  bcast_S_S512x795 : S_.BroadcastsInDim S512x795 (![] : Fin 0 → Fin S512x795.rank)
  reducesTo_S512x795_S_d0_1 : S512x795.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S14x128 : S_.BroadcastsInDim S14x128 (![] : Fin 0 → Fin S14x128.rank)
  reducesTo_S14x128_S_d0_1 : S14x128.ReducesTo [0, 1] S_
  bcast_S_S14 : S_.BroadcastsInDim S14 (![] : Fin 0 → Fin S14.rank)
  reducesTo_S14_S_d0 : S14.ReducesTo [0] S_

variable [Facts]

def fn_part2 {F : FTy → Type} [FloatOps F] (main_arg7 : FVec F S14x128 .f32) (main_arg8 : FVec F S14 .f32) (main_v33 : IVec S_ 1) : IVec S_ 1 :=
  let main_v34 : FVec F S14x128 .f32 := Host.absf main_arg7
  let main_cst_12 : FVec F S_ .f32 := constant S_ .f32 0x7F800000#32
  let main_v35 : FVec F S14x128 .f32 := broadcastInDim S14x128 ![] bcast_S_S14x128 main_cst_12
  let main_v36 : IVec S14x128 1 := cmpf .olt main_v34 main_v35
  let main_c_13 : IVec S_ 1 := constantI S_ 1 1#1
  let main_v37 : IVec S_ 1 := (fun x v => Host.reduce IntOp.andi x v reducesTo_S14x128_S_d0_1 h_S_) main_v36 main_c_13
  let main_v38 : IVec S_ 1 := andi main_v33 main_v37
  let main_v39 : FVec F S14 .f32 := Host.absf main_arg8
  let main_cst_14 : FVec F S_ .f32 := constant S_ .f32 0x7F800000#32
  let main_v40 : FVec F S14 .f32 := broadcastInDim S14 ![] bcast_S_S14 main_cst_14
  let main_v41 : IVec S14 1 := cmpf .olt main_v39 main_v40
  let main_c_15 : IVec S_ 1 := constantI S_ 1 1#1
  let main_v42 : IVec S_ 1 := (fun x v => Host.reduce IntOp.andi x v reducesTo_S14_S_d0 h_S_) main_v41 main_c_15
  let main_v43 : IVec S_ 1 := andi main_v38 main_v42
  main_v43

def fn_part1 {F : FTy → Type} [FloatOps F] (main_arg4 : FVec F S256 .f32) (main_arg5 : FVec F S128x256 .f32) (main_arg6 : FVec F S128 .f32) (main_arg7 : FVec F S14x128 .f32) (main_arg8 : FVec F S14 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S65536x795 .f32) (main_arg1 : FVec F S512x795 .f32) (main_arg2 : FVec F S512 .f32) (main_arg3 : FVec F S256x512 .f32) (main_arg4 : FVec F S256 .f32) (main_arg5 : FVec F S128x256 .f32) (main_arg6 : FVec F S128 .f32) (main_arg7 : FVec F S14x128 .f32) (main_arg8 : FVec F S14 .f32) : IVec S_ 1 :=
  let main_v0 : FVec F S65536x795 .f32 := Host.absf main_arg0
  let main_cst : FVec F S_ .f32 := constant S_ .f32 0x7F800000#32
  let main_v1 : FVec F S65536x795 .f32 := broadcastInDim S65536x795 ![] bcast_S_S65536x795 main_cst
  let main_v2 : IVec S65536x795 1 := cmpf .olt main_v0 main_v1
  let main_c : IVec S_ 1 := constantI S_ 1 1#1
  let main_v3 : IVec S_ 1 := (fun x v => Host.reduce IntOp.andi x v reducesTo_S65536x795_S_d0_1 h_S_) main_v2 main_c
  let main_v4 : FVec F S512x795 .f32 := Host.absf main_arg1
  let main_cst_0 : FVec F S_ .f32 := constant S_ .f32 0x7F800000#32
  let main_v5 : FVec F S512x795 .f32 := broadcastInDim S512x795 ![] bcast_S_S512x795 main_cst_0
  let main_v6 : IVec S512x795 1 := cmpf .olt main_v4 main_v5
  let main_c_1 : IVec S_ 1 := constantI S_ 1 1#1
  let main_v7 : IVec S_ 1 := (fun x v => Host.reduce IntOp.andi x v reducesTo_S512x795_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S65536x795 : Shape := ⟨2, ![65536, 795]⟩
abbrev S512x795 : Shape := ⟨2, ![512, 795]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S14x128 : Shape := ⟨2, ![14, 128]⟩
abbrev S14 : Shape := ⟨1, ![14]⟩
abbrev S795x512 : Shape := ⟨2, ![795, 512]⟩
abbrev S512x256 : Shape := ⟨2, ![512, 256]⟩
abbrev S256x128 : Shape := ⟨2, ![256, 128]⟩
abbrev S128x14 : Shape := ⟨2, ![128, 14]⟩
abbrev S1x512 : Shape := ⟨2, ![1, 512]⟩
abbrev S1x256 : Shape := ⟨2, ![1, 256]⟩
abbrev S1x128 : Shape := ⟨2, ![1, 128]⟩
abbrev S1x14 : Shape := ⟨2, ![1, 14]⟩
abbrev S65536x14 : Shape := ⟨2, ![65536, 14]⟩
abbrev S2048x795 : Shape := ⟨2, ![2048, 795]⟩
abbrev S2048x14 : Shape := ⟨2, ![2048, 14]⟩
abbrev S2048x512 : Shape := ⟨2, ![2048, 512]⟩
abbrev S2048x256 : Shape := ⟨2, ![2048, 256]⟩
abbrev S2048x128 : Shape := ⟨2, ![2048, 128]⟩

abbrev nBuf : Space → Nat
  | .hbm => 23
  | .vmem => 12
  | .smem => 0
  | _ => 0

abbrev bufTy : (tb : Table) → Fin (tcTables nBuf tb) → BufTy
  | .hbm, ⟨0, _⟩ => ⟨S65536x795, .f32⟩
  | .hbm, ⟨1, _⟩ => ⟨S512x795, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S14x128, .f32⟩
  | .hbm, ⟨8, _⟩ => ⟨S14, .f32⟩
  | .hbm, ⟨9, _⟩ => ⟨S65536x795, .bf16⟩
  | .hbm, ⟨10, _⟩ => ⟨S795x512, .f32⟩
  | .hbm, ⟨11, _⟩ => ⟨S795x512, .bf16⟩
  | .hbm, ⟨12, _⟩ => ⟨S512x256, .f32⟩
  | .hbm, ⟨13, _⟩ => ⟨S512x256, .bf16⟩
  | .hbm, ⟨14, _⟩ => ⟨S256x128, .f32⟩
  | .hbm, ⟨15, _⟩ => ⟨S256x128, .bf16⟩
  | .hbm, ⟨16, _⟩ => ⟨S128x14, .f32⟩
  | .hbm, ⟨17, _⟩ => ⟨S128x14, .bf16⟩
  | .hbm, ⟨18, _⟩ => ⟨S1x512, .f32⟩
  | .hbm, ⟨19, _⟩ => ⟨S1x256, .f32⟩
  | .hbm, ⟨20, _⟩ => ⟨S1x128, .f32⟩
  | .hbm, ⟨21, _⟩ => ⟨S1x14, .f32⟩
  | .hbm, ⟨22, _⟩ => ⟨S65536x14, .f32⟩
  | .local _ .vmem, ⟨0, _⟩ => ⟨S2048x795, .bf16⟩
  | .local _ .vmem, ⟨1, _⟩ => ⟨S2048x795, .bf16⟩
  | .local _ .vmem, ⟨2, _⟩ => ⟨S795x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S128x14, .bf16⟩
  | .local _ .vmem, ⟨9, _⟩ => ⟨S1x14, .f32⟩
  | .local _ .vmem, ⟨10, _⟩ => ⟨S2048x14, .f32⟩
  | .local _ .vmem, ⟨11, _⟩ => ⟨S2048x14, .f32⟩
  | _, _ => ⟨S65536x795, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x795 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S795x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x14 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x14 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x14 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S512x795_S795x512_1_0 : S512x795.Transposes [1, 0] S795x512
  transposes_S256x512_S512x256_1_0 : S256x512.Transposes [1, 0] S512x256
  transposes_S128x256_S256x128_1_0 : S128x256.Transposes [1, 0] S256x128
  transposes_S14x128_S128x14_1_0 : S14x128.Transposes [1, 0] S128x14
  shapeCasts_S512_S1x512 : S512.ShapeCasts S1x512
  shapeCasts_S256_S1x256 : S256.ShapeCasts S1x256
  shapeCasts_S128_S1x128 : S128.ShapeCasts S1x128
  shapeCasts_S14_S1x14 : S14.ShapeCasts S1x14
  inb_S2048x795_S2048x795_0_0 : ∀ a, (![0, 0] : Fin 2 → Nat) a + S2048x795.size a ≤ S2048x795.size a
  h_S2048x795 : 0 < S2048x795.numel
  shapeCasts_S2048x795_S2048x795 : S2048x795.ShapeCasts S2048x795
  inb_S795x512_S795x512_0_0 : ∀ a, (![0, 0] : Fin 2 → Nat) a + S795x512.size a ≤ S795x512.size a
  h_S795x512 : 0 < S795x512.numel
  shapeCasts_S795x512_S795x512 : S795x512.ShapeCasts S795x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x14_S128x14_0_0 : ∀ a, (![0, 0] : Fin 2 → Nat) a + S128x14.size a ≤ S128x14.size a
  h_S128x14 : 0 < S128x14.numel
  shapeCasts_S128x14_S128x14 : S128x14.ShapeCasts S128x14
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S2048x14 : S1x14.Broadcasts S2048x14
  inb_S2048x14_S2048x14_0_0 : ∀ a, (![0, 0] : Fin 2 → Nat) a + S2048x14.size a ≤ S2048x14.size a
  h_S2048x14 : 0 < S2048x14.numel
  dot_S2048x795_S795x512_S2048x512_1_0_0_1_n_n_wf : DotDims.WF S2048x795 S795x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x14_S2048x14_1_0_0_1_n_n_wf : DotDims.WF S2048x128 S128x14 S2048x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x795.size a ≤ S65536x795.size a
  hwx0_0 : ∀ i : grid0.Coords, EltTy.bits .bf16 = 32 ∨ (Rect.block (s := S65536x795) S2048x795.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S795x512.size a ≤ S795x512.size a
  hwx0_1 : ∀ i : grid0.Coords, EltTy.bits .bf16 = 32 ∨ (Rect.block (s := S795x512) S795x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x14.size a ≤ S128x14.size a
  hwx0_7 : ∀ i : grid0.Coords, EltTy.bits .bf16 = 32 ∨ (Rect.block (s := S128x14) S128x14.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x14.size a ≤ S1x14.size a
  hwx0_8 : ∀ i : grid0.Coords, EltTy.bits .f32 = 32 ∨ (Rect.block (s := S1x14) S1x14.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x14.size a ≤ S65536x14.size a
  hwx0_9 : ∀ i : grid0.Coords, EltTy.bits .f32 = 32 ∨ (Rect.block (s := S65536x14) S2048x14.size (cc0_transform_9 i) (hinb0_9 i)).WholeWords (EltTy.packing .f32)

variable [Facts₀]

def dot_S2048x795_S795x512_S2048x512_1_0_0_1_n_n : DotDims S2048x795 S795x512 S2048x512 where
  lhsContracting := [1]
  rhsContracting := [0]
  lhsNonContracting := [0]
  rhsNonContracting := [1]
  lhsBatch := []
  rhsBatch := []
  wf := dot_S2048x795_S795x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x14_S2048x14_1_0_0_1_n_n : DotDims S2048x128 S128x14 S2048x14 where
  lhsContracting := [1]
  rhsContracting := [0]
  lhsNonContracting := [0]
  rhsNonContracting := [1]
  lhsBatch := []
  rhsBatch := []
  wf := dot_S2048x128_S128x14_S2048x14_1_0_0_1_n_n_wf

abbrev win0_0 : Pipeline.Window sig grid0 :=
  Pipeline.Window.ofSpec (Memref.whole main_v0) S2048x795.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S795x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x14.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x14.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S2048x14.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x795 : Shape := ⟨2, ![65536, 795]⟩
abbrev S512x795 : Shape := ⟨2, ![512, 795]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S14x128 : Shape := ⟨2, ![14, 128]⟩
abbrev S14 : Shape := ⟨1, ![14]⟩
abbrev S795x512 : Shape := ⟨2, ![795, 512]⟩
abbrev S65536x512 : Shape := ⟨2, ![65536, 512]⟩
abbrev S1x512 : Shape := ⟨2, ![1, 512]⟩
abbrev S_ : Shape := ⟨0, ![]⟩
abbrev S512x256 : Shape := ⟨2, ![512, 256]⟩
abbrev S65536x256 : Shape := ⟨2, ![65536, 256]⟩
abbrev S1x256 : Shape := ⟨2, ![1, 256]⟩
abbrev S256x128 : Shape := ⟨2, ![256, 128]⟩
abbrev S65536x128 : Shape := ⟨2, ![65536, 128]⟩
abbrev S1x128 : Shape := ⟨2, ![1, 128]⟩
abbrev S128x14 : Shape := ⟨2, ![128, 14]⟩
abbrev S65536x14 : Shape := ⟨2, ![65536, 14]⟩
abbrev S1x14 : Shape := ⟨2, ![1, 14]⟩

abbrev nBuf : Space → Nat
  | .hbm => 62
  | .vmem => 0
  | .smem => 0
  | _ => 0

abbrev bufTy : (tb : Table) → Fin (tcTables nBuf tb) → BufTy
  | .hbm, ⟨0, _⟩ => ⟨S65536x795, .f32⟩
  | .hbm, ⟨1, _⟩ => ⟨S512x795, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S14x128, .f32⟩
  | .hbm, ⟨8, _⟩ => ⟨S14, .f32⟩
  | .hbm, ⟨9, _⟩ => ⟨S795x512, .f32⟩
  | .hbm, ⟨10, _⟩ => ⟨S65536x512, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .i1⟩
  | .hbm, ⟨17, _⟩ => ⟨S65536x512, .f32⟩
  | .hbm, ⟨18, _⟩ => ⟨S_, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S512x256, .f32⟩
  | .hbm, ⟨26, _⟩ => ⟨S65536x256, .f32⟩
  | .hbm, ⟨27, _⟩ => ⟨S1x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .i1⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S256x128, .f32⟩
  | .hbm, ⟨42, _⟩ => ⟨S65536x128, .f32⟩
  | .hbm, ⟨43, _⟩ => ⟨S1x128, .f32⟩
  | .hbm, ⟨44, _⟩ => ⟨S65536x128, .f32⟩
  | .hbm, ⟨45, _⟩ => ⟨S65536x128, .f32⟩
  | .hbm, ⟨46, _⟩ => ⟨S_, .f32⟩
  | .hbm, ⟨47, _⟩ => ⟨S65536x128, .f32⟩
  | .hbm, ⟨48, _⟩ => ⟨S65536x128, .i1⟩
  | .hbm, ⟨49, _⟩ => ⟨S65536x128, .f32⟩
  | .hbm, ⟨50, _⟩ => ⟨S_, .f32⟩
  | .hbm, ⟨51, _⟩ => ⟨S65536x128, .f32⟩
  | .hbm, ⟨52, _⟩ => ⟨S65536x128, .f32⟩
  | .hbm, ⟨53, _⟩ => ⟨S_, .f32⟩
  | .hbm, ⟨54, _⟩ => ⟨S65536x128, .f32⟩
  | .hbm, ⟨55, _⟩ => ⟨S65536x128, .f32⟩
  | .hbm, ⟨56, _⟩ => ⟨S65536x128, .f32⟩
  | .hbm, ⟨57, _⟩ => ⟨S128x14, .f32⟩
  | .hbm, ⟨58, _⟩ => ⟨S65536x14, .f32⟩
  | .hbm, ⟨59, _⟩ => ⟨S1x14, .f32⟩
  | .hbm, ⟨60, _⟩ => ⟨S65536x14, .f32⟩
  | .hbm, ⟨61, _⟩ => ⟨S65536x14, .f32⟩
  | _, _ => ⟨S65536x795, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  transposes_S512x795_S795x512_1_0 : S512x795.Transposes [1, 0] S795x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S14x128_S128x14_1_0 : S14x128.Transposes [1, 0] S128x14
  bcast_S14_S1x14_1 : S14.BroadcastsInDim S1x14 (![1] : Fin 1 → Fin S1x14.rank)
  bcast_S1x14_S65536x14_0_1 : S1x14.BroadcastsInDim S65536x14 (![0, 1] : Fin 2 → Fin S65536x14.rank)
  dot_S65536x795_S795x512_S65536x512_1_0_0_1_n_n_wf : DotDims.WF S65536x795 S795x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x14_S65536x14_1_0_0_1_n_n_wf : DotDims.WF S65536x128 S128x14 S65536x14 [1] [0] [0] [1] [] []

variable [Facts₀]

def dot_S65536x795_S795x512_S65536x512_1_0_0_1_n_n : DotDims S65536x795 S795x512 S65536x512 where
  lhsContracting := [1]
  rhsContracting := [0]
  lhsNonContracting := [0]
  rhsNonContracting := [1]
  lhsBatch := []
  rhsBatch := []
  wf := dot_S65536x795_S795x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x14_S65536x14_1_0_0_1_n_n : DotDims S65536x128 S128x14 S65536x14 where
  lhsContracting := [1]
  rhsContracting := [0]
  lhsNonContracting := [0]
  rhsNonContracting := [1]
  lhsBatch := []
  rhsBatch := []
  wf := dot_S65536x128_S128x14_S65536x14_1_0_0_1_n_n_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibDenseLayer.lean ====
import Idealize.ShloMosaic.PureOps.Ideal.Laws
import Idealize.ShloMosaic.Lib.ValueIdx
import Idealize.ShloMosaic.Lib.ValueLayout
import Idealize.ShloMosaic.Lib.Pipeline.Value
import proofs.«104562_j38878043964064_1_alg».proof.Proof.LibPlainMatmul

/-!
# One fully connected layer over the extended reals, on a row and on a block of rows

A fully connected layer sends a row `h` of `K` numbers to the `N` numbers `Σₖ h k · W (j, k) + b j`, the weight matrix
stored one OUTPUT per row (`N × K`). On a block of `M` rows the matrix unit computes the same numbers from the
TRANSPOSED weights (`K × N`) and the bias as a `1 × N` row broadcast down the block; a hidden layer then applies the
exponential linear unit `v ↦ v` for `v ≥ 0`, `1 · (eᵛ − 1)` for `v < 0`, entry by entry. Here both forms are read
at one entry.
-/

noncomputable section

namespace Idealize.ShloMosaic.DenseLayer

open Idealize.ShloMosaic Idealize.ShloMosaic.ValueIdx

/-- The exponential linear unit with unit slope, as both programs spell it: where `v < 0` the product of one with
    `eᵛ − 1`, elsewhere `v` itself (the words `0x00000000` and `0x3F800000` are the floats zero and one). -/
def elu (v : EReal) : EReal :=
  Scalar.select (Ideal.cmp .olt v (Ideal.ofBits .f32 0x00000000#32))
    (Ideal.ofBits .f32 0x3F800000#32 * (Ideal.exp v - Ideal.ofBits .f32 0x3F800000#32)) v

/-- One output of a fully connected layer on the row `h`: `Σₖ h k · W (j, k) + b j`. -/
def affine {K N : Nat} (W : (⟨2, ![N, K]⟩ : Shape).Idx → EReal) (b : (⟨1, ![N]⟩ : Shape).Idx → EReal)
    (h : Fin K → EReal) (j : Fin N) : EReal :=
  (∑ q : Fin K, h q * W (ix2 j q)) + b (ix1 j)

/-- The layer's pre-activation on a block of `M` rows as the matrix unit computes it: the product of the block (a
    loaded block, or the previous layer's activations) with the transposed weights into a zero accumulator, plus the bias
    row broadcast down the rows. -/
def affineBlock (M K N : Nat) {φ₁ φ₂ : FTy} (x : FVec Ideal ⟨2, ![M, K]⟩ φ₁) (w : FVec Ideal ⟨2, ![K, N]⟩ φ₂)
    (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  addf (matmul (DotDims.plain M K N) none x (shapeCast ⟨2, ![K, N]⟩ w hw)
    (constant ⟨2, ![M, N]⟩ .f32 0x00000000#32)) (broadcastTo ⟨2, ![M, N]⟩ (shapeCast ⟨2, ![1, N]⟩ b hb) hbc)

/-- Entry `(p, j)` of the pre-activation: row `p` of the block against column `j` of the transposed weights, plus the
    bias at `j`. -/
theorem affineBlock_apply (M K N : Nat) {φ₁ φ₂ : FTy} (x : FVec Ideal ⟨2, ![M, K]⟩ φ₁) (w : FVec Ideal ⟨2, ![K, N]⟩ φ₂)
    (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (j : Fin N) :
    affineBlock M K N x w b hw hb hbc (ix2 p j)
      = (∑ q : Fin K, x (ix2 p q) * w (ix2 q j)) + b (ix2 (0 : Fin 1) j) := by
  unfold affineBlock
  rw [shapeCast_self, shapeCast_self]
  show FloatOps.matmul (DotDims.plain M K N) none x w (constant ⟨2, ![M, N]⟩ .f32 0x00000000#32) (ix2 p j)
    + broadcastTo ⟨2, ![M, N]⟩ b hbc (ix2 p j) = _
  rw [PlainMatmul.matmul_plain_zero_apply, broadcastTo_1b_ab_apply]

/-- A hidden layer on a block: the exponential linear unit of the pre-activation, entry by entry, handed on in the
    narrower float format (which is no change of value over the extended reals). -/
def hiddenBlock (M K N : Nat) {φ₁ φ₂ : FTy} (hlt : FTy.bits .bf16 < FTy.bits .f32) (x : FVec Ideal ⟨2, ![M, K]⟩ φ₁)
    (w : FVec Ideal ⟨2, ![K, N]⟩ φ₂) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩) :
    FVec Ideal ⟨2, ![M, N]⟩ .bf16 :=
  truncf .bf16
    (select (cmpf .olt (affineBlock M K N x w b hw hb hbc) (broadcast ⟨2, ![M, N]⟩ (Scalar.ofBits .f32 0x00000000#32)))
      (mulf (broadcast ⟨2, ![M, N]⟩ (Scalar.ofBits .f32 0x3F800000#32))
        (subf (exp (affineBlock M K N x w b hw hb hbc)) (broadcast ⟨2, ![M, N]⟩ (Scalar.ofBits .f32 0x3F800000#32))))
      (affineBlock M K N x w b hw hb hbc)) hlt

/-- Entry `(p, j)` of a hidden layer on a block. -/
theorem hiddenBlock_apply (M K N : Nat) {φ₁ φ₂ : FTy} (hlt : FTy.bits .bf16 < FTy.bits .f32)
    (x : FVec Ideal ⟨2, ![M, K]⟩ φ₁) (w : FVec Ideal ⟨2, ![K, N]⟩ φ₂) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (j : Fin N) :
    hiddenBlock M K N hlt x w b hw hb hbc (ix2 p j)
      = elu ((∑ q : Fin K, x (ix2 p q) * w (ix2 q j)) + b (ix2 (0 : Fin 1) j)) := by
  rw [← affineBlock_apply M K N x w b hw hb hbc p j]
  rfl

end Idealize.ShloMosaic.DenseLayer

end
-- ==== Proof.Network.lean ====
import proofs.«104562_j38878043964064_1_alg».proof.Proof.LibDenseLayer

/-!
# The network both programs compute

Four fully connected layers on each of the 65536 rows of `x`: 795 → 512 → 256 → 128 → 14, the exponential linear unit
after each of the first three, none after the last. Every row is treated alone: output entry `(r, j)` depends on
row `r` of `x` and on the weights, on nothing else. Stated here once, over the extended reals, as one function of the
nine argument arrays; the two value proofs each reach this function.
-/

noncomputable section

namespace Cert.Network

open Idealize.ShloMosaic Idealize.ShloMosaic.ValueIdx Idealize.ShloMosaic.DenseLayer

/-- The first hidden layer on row `r` of `x`: 512 activations. -/
def hidden1 (x : (⟨2, ![65536, 795]⟩ : Shape).Idx → EReal) (W1 : (⟨2, ![512, 795]⟩ : Shape).Idx → EReal)
    (b1 : (⟨1, ![512]⟩ : Shape).Idx → EReal) (r : Fin 65536) (j : Fin 512) : EReal :=
  elu (affine W1 b1 (fun q => x (ix2 r q)) j)

/-- The second hidden layer on what the first made of row `r`: 256 activations. -/
def hidden2 (x : (⟨2, ![65536, 795]⟩ : Shape).Idx → EReal) (W1 : (⟨2, ![512, 795]⟩ : Shape).Idx → EReal)
    (b1 : (⟨1, ![512]⟩ : Shape).Idx → EReal) (W2 : (⟨2, ![256, 512]⟩ : Shape).Idx → EReal)
    (b2 : (⟨1, ![256]⟩ : Shape).Idx → EReal) (r : Fin 65536) (j : Fin 256) : EReal :=
  elu (affine W2 b2 (hidden1 x W1 b1 r) j)

/-- The third hidden layer: 128 activations. -/
def hidden3 (x : (⟨2, ![65536, 795]⟩ : Shape).Idx → EReal) (W1 : (⟨2, ![512, 795]⟩ : Shape).Idx → EReal)
    (b1 : (⟨1, ![512]⟩ : Shape).Idx → EReal) (W2 : (⟨2, ![256, 512]⟩ : Shape).Idx → EReal)
    (b2 : (⟨1, ![256]⟩ : Shape).Idx → EReal) (W3 : (⟨2, ![128, 256]⟩ : Shape).Idx → EReal)
    (b3 : (⟨1, ![128]⟩ : Shape).Idx → EReal) (r : Fin 65536) (j : Fin 128) : EReal :=
  elu (affine W3 b3 (hidden2 x W1 b1 W2 b2 r) j)

/-- The network's output array: the last layer, with no activation, of the third hidden layer's row. -/
def output (x : (⟨2, ![65536, 795]⟩ : Shape).Idx → EReal) (W1 : (⟨2, ![512, 795]⟩ : Shape).Idx → EReal)
    (b1 : (⟨1, ![512]⟩ : Shape).Idx → EReal) (W2 : (⟨2, ![256, 512]⟩ : Shape).Idx → EReal)
    (b2 : (⟨1, ![256]⟩ : Shape).Idx → EReal) (W3 : (⟨2, ![128, 256]⟩ : Shape).Idx → EReal)
    (b3 : (⟨1, ![128]⟩ : Shape).Idx → EReal) (W4 : (⟨2, ![14, 128]⟩ : Shape).Idx → EReal)
    (b4 : (⟨1, ![14]⟩ : Shape).Idx → EReal) : (⟨2, ![65536, 14]⟩ : Shape).Idx → EReal :=
  fun i => affine W4 b4 (hidden3 x W1 b1 W2 b2 W3 b3 (i 0)) (i 1)

end Cert.Network

end
-- ==== Proof.KernelBlock.lean ====
import proofs.«104562_j38878043964064_1_alg».proof.Proof.Gen.KernelIdeal.Skeleton
import proofs.«104562_j38878043964064_1_alg».proof.Proof.Network

/-!
# The kernel body computes the network on its block of rows

At one grid point the body holds a block of 2048 rows of `x` (narrowed to bf16, which over the extended reals changes
nothing), the four weight matrices TRANSPOSED (`K × N`), and the four biases as `1 × N` rows. Its arithmetic is three
hidden layers and the output layer on that block, each a matrix-unit product into zero plus the broadcast bias. So
entry `(p, j)` of what it stores is the network's output for the row of `x` that block row `p` holds — given what
the operands hold, which is stated here as hypotheses and discharged where the blocks are read off the arrays.
-/

noncomputable section

namespace Cert.KernelIdeal.BlockValue

open Cert.KernelIdeal Cert.KernelIdeal.Gen Idealize.ShloMosaic Idealize.ShloMosaic.ValueIdx
open Idealize.ShloMosaic.DenseLayer Cert.Network

/-- The body's two payloads, composed, are the four layers on the block: the printed dimension numbers of each product
    are the plain rows-by-columns ones. -/
theorem payload_eq (x0 : Vec Ideal S2048x795 .bf16) (x1 : Vec Ideal S795x512 .bf16) (x2 : Vec Ideal S1x512 .f32)
    (x3 : Vec Ideal S512x256 .bf16) (x4 : Vec Ideal S1x256 .f32) (x5 : Vec Ideal S256x128 .bf16)
    (x6 : Vec Ideal S1x128 .f32) (x7 : Vec Ideal S128x14 .bf16) (x8 : Vec Ideal S1x14 .f32) :
    k0_pay1 (k0_pay2 x0 x1 x2 x3 x4 x5) x6 x7 x8
      = affineBlock 2048 128 14 (φ₁ := .bf16) (φ₂ := .bf16)
          (hiddenBlock 2048 256 128 (φ₁ := .bf16) (φ₂ := .bf16) bitsLt_bf16_f32
            (hiddenBlock 2048 512 256 (φ₁ := .bf16) (φ₂ := .bf16) bitsLt_bf16_f32
              (hiddenBlock 2048 795 512 (φ₁ := .bf16) (φ₂ := .bf16) bitsLt_bf16_f32
                (shapeCast S2048x795 x0 shapeCasts_S2048x795_S2048x795) x1 x2
                shapeCasts_S795x512_S795x512 shapeCasts_S1x512_S1x512 broadcasts_S1x512_S2048x512)
              x3 x4 shapeCasts_S512x256_S512x256 shapeCasts_S1x256_S1x256 broadcasts_S1x256_S2048x256)
            x5 x6 shapeCasts_S256x128_S256x128 shapeCasts_S1x128_S1x128 broadcasts_S1x128_S2048x128)
          x7 x8 shapeCasts_S128x14_S128x14 shapeCasts_S1x14_S1x14 broadcasts_S1x14_S2048x14 := rfl

/-- ENTRY `(p, j)` OF THE STORED BLOCK is the network's output at `(r, j)`, when block row `p` holds row `r` of `x`, the
    weight operands hold the transposes of `W1 … W4` and the bias operands the biases as rows. -/
theorem payload_apply (x0 : Vec Ideal S2048x795 .bf16) (x1 : Vec Ideal S795x512 .bf16) (x2 : Vec Ideal S1x512 .f32)
    (x3 : Vec Ideal S512x256 .bf16) (x4 : Vec Ideal S1x256 .f32) (x5 : Vec Ideal S256x128 .bf16)
    (x6 : Vec Ideal S1x128 .f32) (x7 : Vec Ideal S128x14 .bf16) (x8 : Vec Ideal S1x14 .f32)
    (x : (⟨2, ![65536, 795]⟩ : Shape).Idx → EReal) (W1 : (⟨2, ![512, 795]⟩ : Shape).Idx → EReal)
    (b1 : (⟨1, ![512]⟩ : Shape).Idx → EReal) (W2 : (⟨2, ![256, 512]⟩ : Shape).Idx → EReal)
    (b2 : (⟨1, ![256]⟩ : Shape).Idx → EReal) (W3 : (⟨2, ![128, 256]⟩ : Shape).Idx → EReal)
    (b3 : (⟨1, ![128]⟩ : Shape).Idx → EReal) (W4 : (⟨2, ![14, 128]⟩ : Shape).Idx → EReal)
    (b4 : (⟨1, ![14]⟩ : Shape).Idx → EReal) (r : Fin 65536) (p : Fin 2048) (j : Fin 14)
    (hx : ∀ q : Fin 795, x0 (ix2 p q) = x (ix2 r q))
    (hW1 : ∀ (q : Fin 795) (n : Fin 512), x1 (ix2 q n) = W1 (ix2 n q)) (hb1 : ∀ n : Fin 512, x2 (ix2 (0 : Fin 1) n) = b1 (ix1 n))
    (hW2 : ∀ (q : Fin 512) (n : Fin 256), x3 (ix2 q n) = W2 (ix2 n q)) (hb2 : ∀ n : Fin 256, x4 (ix2 (0 : Fin 1) n) = b2 (ix1 n))
    (hW3 : ∀ (q : Fin 256) (n : Fin 128), x5 (ix2 q n) = W3 (ix2 n q)) (hb3 : ∀ n : Fin 128, x6 (ix2 (0 : Fin 1) n) = b3 (ix1 n))
    (hW4 : ∀ (q : Fin 128) (n : Fin 14), x7 (ix2 q n) = W4 (ix2 n q)) (hb4 : ∀ n : Fin 14, x8 (ix2 (0 : Fin 1) n) = b4 (ix1 n)) :
    k0_pay1 (k0_pay2 x0 x1 x2 x3 x4 x5) x6 x7 x8 (ix2 p j) = output x W1 b1 W2 b2 W3 b3 W4 b4 (ix2 r j) := by
  rw [payload_eq, affineBlock_apply]
  simp only [hiddenBlock_apply, shapeCast_self, hx, hW1, hb1, hW2, hb2, hW3, hb3, hW4, hb4]
  rfl

end Cert.KernelIdeal.BlockValue

end
-- ==== Proof.KernelValue.lean ====
import proofs.«104562_j38878043964064_1_alg».proof.Proof.Gen.KernelIdeal.Value
import proofs.«104562_j38878043964064_1_alg».proof.Proof.KernelBlock
import Idealize.ShloMosaic.Lib.StableHlo.Run
import Idealize.ShloMosaic.Lib.ValueLayout

/-!
# The kernel's result array is the network's output

The grid has 32 points; point `t` is handed rows `2048·t … 2048·t + 2047` of `x` and writes back the same rows of the
result. The weights and biases are whole-array windows, the same at every point. Before the region the host narrows
`x`, transposes and narrows each weight matrix and reshapes each bias to a row: over the extended reals these are a
re-reading of the argument arrays at permuted indices. So each point writes back its block of the network's output
(`Cert.Network.output`) of the argument arrays, and the 32 blocks tile the result.
-/

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.StableHlo Idealize.ShloMosaic.ValueIdx Cert.Network
open Idealize.ShloMosaic.Pipeline (Dat)

variable (m : (ℓ : Loc nD τ sig) → Buf (Elt Ideal) ℓ) (ρ : Dev nD → PrngReg)

/-! ## What the region finds in the arrays the host wrote -/

/-- The narrowed copy of `x` holds `x`. -/
theorem staged_x (c : Dev nD) :
    (V m c main_v0 : S65536x795.Idx → EReal) = m ((c : Thread nD τ).loc main_arg0) := by
  dsimp only [V, hostOps0]; after_results; rfl

/-- The first layer's staged weights are the transpose of `W1`. -/
theorem staged_W1 (c : Dev nD) :
    (V m c main_v2 : S795x512.Idx → EReal)
      = transpose S795x512 [1, 0] (m ((c : Thread nD τ).loc main_arg1)) transposes_S512x795_S795x512_1_0 := by
  dsimp only [V, hostOps0]; after_results; rfl

/-- The second layer's staged weights are the transpose of `W2`. -/
theorem staged_W2 (c : Dev nD) :
    (V m c main_v4 : S512x256.Idx → EReal)
      = transpose S512x256 [1, 0] (m ((c : Thread nD τ).loc main_arg3)) transposes_S256x512_S512x256_1_0 := by
  dsimp only [V, hostOps0]; after_results; rfl

/-- The third layer's staged weights are the transpose of `W3`. -/
theorem staged_W3 (c : Dev nD) :
    (V m c main_v6 : S256x128.Idx → EReal)
      = transpose S256x128 [1, 0] (m ((c : Thread nD τ).loc main_arg5)) transposes_S128x256_S256x128_1_0 := by
  dsimp only [V, hostOps0]; after_results; rfl

/-- The last layer's staged weights are the transpose of `W4`. -/
theorem staged_W4 (c : Dev nD) :
    (V m c main_v8 : S128x14.Idx → EReal)
      = transpose S128x14 [1, 0] (m ((c : Thread nD τ).loc main_arg7)) transposes_S14x128_S128x14_1_0 := by
  dsimp only [V, hostOps0]; after_results; rfl

/-- The first bias, staged, is `b1` as one row. -/
theorem staged_b1 (c : Dev nD) :
    (V m c main_v9 : S1x512.Idx → EReal) = shapeCast S1x512 (m ((c : Thread nD τ).loc main_arg2)) shapeCasts_S512_S1x512 := by
  dsimp only [V, hostOps0]; after_results; rfl

/-- The second bias, staged, is `b2` as one row. -/
theorem staged_b2 (c : Dev nD) :
    (V m c main_v10 : S1x256.Idx → EReal) = shapeCast S1x256 (m ((c : Thread nD τ).loc main_arg4)) shapeCasts_S256_S1x256 := by
  dsimp only [V, hostOps0]; after_results; rfl

/-- The third bias, staged, is `b3` as one row. -/
theorem staged_b3 (c : Dev nD) :
    (V m c main_v11 : S1x128.Idx → EReal) = shapeCast S1x128 (m ((c : Thread nD τ).loc main_arg6)) shapeCasts_S128_S1x128 := by
  dsimp only [V, hostOps0]; after_results; rfl

/-- The last bias, staged, is `b4` as one row. -/
theorem staged_b4 (c : Dev nD) :
    (V m c main_v12 : S1x14.Idx → EReal) = shapeCast S1x14 (m ((c : Thread nD τ).loc main_arg8)) shapeCasts_S14_S1x14 := by
  dsimp only [V, hostOps0]; after_results; rfl

/-! ## Where each window's block lies -/

/-- The printed index maps over the 32 points: the windows of `x` and of the result are at block row `t`, block column
    0; every other window is at block (0, 0). -/
theorem index_facts : ∀ t : Fin cfg0.N,
    win0_0.index t (0 : Fin 2) = t.val ∧ win0_0.index t (1 : Fin 2) = 0
    ∧ win0_9.index t (0 : Fin 2) = t.val ∧ win0_9.index t (1 : Fin 2) = 0
    ∧ (∀ a : Fin 2, win0_1.index t a = 0) ∧ (∀ a : Fin 2, win0_2.index t a = 0)
    ∧ (∀ a : Fin 2, win0_3.index t a = 0) ∧ (∀ a : Fin 2, win0_4.index t a = 0)
    ∧ (∀ a : Fin 2, win0_5.index t a = 0) ∧ (∀ a : Fin 2, win0_6.index t a = 0)
    ∧ (∀ a : Fin 2, win0_7.index t a = 0) ∧ (∀ a : Fin 2, win0_8.index t a = 0) :=
  (by decide +kernel : ∀ t : Fin grid0.N, _)

/-- The row of `x` (and of the result) that row `p` of point `t`'s block is. -/
def rowOf (t : Fin cfg0.N) (p : Fin 2048) : Fin 65536 :=
  ⟨t.val * 2048 + p.val, by have hN : cfg0.N = 32 := N_0; have := t.isLt; have := p.isLt; omega⟩

/-- Row `p` of point `t`'s block of `x` is row `rowOf t p` of `x`. -/
theorem x_block (c : Dev nD) (t : Fin cfg0.N) (p : Fin 2048) (q : Fin 795) :
    iblk m c 0 t (ix2 p q) = m ((c : Thread nD τ).loc main_arg0) (ix2 (rowOf t p) q) := by
  show V m c main_v0 (((cfg0.win 0).blk t).view.emb (ix2 p q)) = _
  rw [staged_x]
  obtain ⟨e0, e1, -⟩ := index_facts t
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 795 + 1 * q.val = q.val; omega

/-- The first layer's weight window, the same at every point: at `(q, n)` it holds `W1 (n, q)`. -/
theorem W1_block (c : Dev nD) (t : Fin cfg0.N) (q : Fin 795) (n : Fin 512) :
    iblk m c 1 t (ix2 q n) = m ((c : Thread nD τ).loc main_arg1) (ix2 n q) := by
  show V m c main_v2 (((cfg0.win 1).blk t).view.emb (ix2 q n)) = _
  rw [staged_W1]
  obtain ⟨-, -, -, -, e, -⟩ := index_facts t
  refine transpose_apply [1, 0] _ _ _ (ix2 n q) fun b => ?_
  match b with
  | ⟨0, _⟩ => show q.val = win0_1.index t (0 : Fin 2) * 795 + 1 * q.val; have := e 0; omega
  | ⟨1, _⟩ => show n.val = win0_1.index t (1 : Fin 2) * 512 + 1 * n.val; have := e 1; omega

/-- The second layer's weight window: at `(q, n)` it holds `W2 (n, q)`. -/
theorem W2_block (c : Dev nD) (t : Fin cfg0.N) (q : Fin 512) (n : Fin 256) :
    iblk m c 3 t (ix2 q n) = m ((c : Thread nD τ).loc main_arg3) (ix2 n q) := by
  show V m c main_v4 (((cfg0.win 3).blk t).view.emb (ix2 q n)) = _
  rw [staged_W2]
  obtain ⟨-, -, -, -, -, -, e, -⟩ := index_facts t
  refine transpose_apply [1, 0] _ _ _ (ix2 n q) fun b => ?_
  match b with
  | ⟨0, _⟩ => show q.val = win0_3.index t (0 : Fin 2) * 512 + 1 * q.val; have := e 0; omega
  | ⟨1, _⟩ => show n.val = win0_3.index t (1 : Fin 2) * 256 + 1 * n.val; have := e 1; omega

/-- The third layer's weight window: at `(q, n)` it holds `W3 (n, q)`. -/
theorem W3_block (c : Dev nD) (t : Fin cfg0.N) (q : Fin 256) (n : Fin 128) :
    iblk m c 5 t (ix2 q n) = m ((c : Thread nD τ).loc main_arg5) (ix2 n q) := by
  show V m c main_v6 (((cfg0.win 5).blk t).view.emb (ix2 q n)) = _
  rw [staged_W3]
  obtain ⟨-, -, -, -, -, -, -, -, e, -⟩ := index_facts t
  refine transpose_apply [1, 0] _ _ _ (ix2 n q) fun b => ?_
  match b with
  | ⟨0, _⟩ => show q.val = win0_5.index t (0 : Fin 2) * 256 + 1 * q.val; have := e 0; omega
  | ⟨1, _⟩ => show n.val = win0_5.index t (1 : Fin 2) * 128 + 1 * n.val; have := e 1; omega

/-- The last layer's weight window: at `(q, n)` it holds `W4 (n, q)`. -/
theorem W4_block (c : Dev nD) (t : Fin cfg0.N) (q : Fin 128) (n : Fin 14) :
    iblk m c 7 t (ix2 q n) = m ((c : Thread nD τ).loc main_arg7) (ix2 n q) := by
  show V m c main_v8 (((cfg0.win 7).blk t).view.emb (ix2 q n)) = _
  rw [staged_W4]
  obtain ⟨-, -, -, -, -, -, -, -, -, -, e, -⟩ := index_facts t
  refine transpose_apply [1, 0] _ _ _ (ix2 n q) fun b => ?_
  match b with
  | ⟨0, _⟩ => show q.val = win0_7.index t (0 : Fin 2) * 128 + 1 * q.val; have := e 0; omega
  | ⟨1, _⟩ => show n.val = win0_7.index t (1 : Fin 2) * 14 + 1 * n.val; have := e 1; omega

/-- The first bias window: its one row holds `b1`. -/
theorem b1_block (c : Dev nD) (t : Fin cfg0.N) (n : Fin 512) :
    iblk m c 2 t (ix2 (0 : Fin 1) n) = m ((c : Thread nD τ).loc main_arg2) (ix1 n) := by
  show V m c main_v9 (((cfg0.win 2).blk t).view.emb (ix2 (0 : Fin 1) n)) = _
  rw [staged_b1]
  obtain ⟨-, -, -, -, -, e, -⟩ := index_facts t
  have he : ((cfg0.win 2).blk t).view.emb (ix2 (0 : Fin 1) n) = ix2 (0 : Fin 1) n := funext fun a => Fin.ext (by
    match a with
    | ⟨0, _⟩ => show win0_2.index t (0 : Fin 2) * 1 + 1 * 0 = 0; have := e 0; omega
    | ⟨1, _⟩ => show win0_2.index t (1 : Fin 2) * 512 + 1 * n.val = n.val; have := e 1; omega)
  rw [he]
  exact shapeCast_a_1a_apply _ _ _ _

/-- The second bias window: its one row holds `b2`. -/
theorem b2_block (c : Dev nD) (t : Fin cfg0.N) (n : Fin 256) :
    iblk m c 4 t (ix2 (0 : Fin 1) n) = m ((c : Thread nD τ).loc main_arg4) (ix1 n) := by
  show V m c main_v10 (((cfg0.win 4).blk t).view.emb (ix2 (0 : Fin 1) n)) = _
  rw [staged_b2]
  obtain ⟨-, -, -, -, -, -, -, e, -⟩ := index_facts t
  have he : ((cfg0.win 4).blk t).view.emb (ix2 (0 : Fin 1) n) = ix2 (0 : Fin 1) n := funext fun a => Fin.ext (by
    match a with
    | ⟨0, _⟩ => show win0_4.index t (0 : Fin 2) * 1 + 1 * 0 = 0; have := e 0; omega
    | ⟨1, _⟩ => show win0_4.index t (1 : Fin 2) * 256 + 1 * n.val = n.val; have := e 1; omega)
  rw [he]
  exact shapeCast_a_1a_apply _ _ _ _

/-- The third bias window: its one row holds `b3`. -/
theorem b3_block (c : Dev nD) (t : Fin cfg0.N) (n : Fin 128) :
    iblk m c 6 t (ix2 (0 : Fin 1) n) = m ((c : Thread nD τ).loc main_arg6) (ix1 n) := by
  show V m c main_v11 (((cfg0.win 6).blk t).view.emb (ix2 (0 : Fin 1) n)) = _
  rw [staged_b3]
  obtain ⟨-, -, -, -, -, -, -, -, -, e, -⟩ := index_facts t
  have he : ((cfg0.win 6).blk t).view.emb (ix2 (0 : Fin 1) n) = ix2 (0 : Fin 1) n := funext fun a => Fin.ext (by
    match a with
    | ⟨0, _⟩ => show win0_6.index t (0 : Fin 2) * 1 + 1 * 0 = 0; have := e 0; omega
    | ⟨1, _⟩ => show win0_6.index t (1 : Fin 2) * 128 + 1 * n.val = n.val; have := e 1; omega)
  rw [he]
  exact shapeCast_a_1a_apply _ _ _ _

/-- The last bias window: its one row holds `b4`. -/
theorem b4_block (c : Dev nD) (t : Fin cfg0.N) (n : Fin 14) :
    iblk m c 8 t (ix2 (0 : Fin 1) n) = m ((c : Thread nD τ).loc main_arg8) (ix1 n) := by
  show V m c main_v12 (((cfg0.win 8).blk t).view.emb (ix2 (0 : Fin 1) n)) = _
  rw [staged_b4]
  obtain ⟨-, -, -, -, -, -, -, -, -, -, -, e⟩ := index_facts t
  have he : ((cfg0.win 8).blk t).view.emb (ix2 (0 : Fin 1) n) = ix2 (0 : Fin 1) n := funext fun a => Fin.ext (by
    match a with
    | ⟨0, _⟩ => show win0_8.index t (0 : Fin 2) * 1 + 1 * 0 = 0; have := e 0; omega
    | ⟨1, _⟩ => show win0_8.index t (1 : Fin 2) * 14 + 1 * n.val = n.val; have := e 1; omega)
  rw [he]
  exact shapeCast_a_1a_apply _ _ _ _

/-! ## What each point writes back, and the whole result -/

/-- The network's output of the argument arrays as launched on core `c`. -/
abbrev result (c : Dev nD) : S65536x14.Idx → EReal :=
  output (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))

theorem origin2 : (![0, 0] : Fin 2 → Nat) = fun _ => 0 := funext fun a => by fin_cases a <;> rfl

/-- POINT `t` WRITES BACK its block of the network's output: entry `(p, j)` of the stored block is the output at
    `(rowOf t p, j)`, which is where the result window's block at `t` puts it. -/
theorem flushed_eq (c : Dev nD) (t : Fin cfg0.N) :
    (dats m 0 c).flushed 9 t = ((cfg0.win 9).blk t).view.read (Elt Ideal) (result m c) := by
  rw [flushed9]
  unfold out0_9
  rw [View.canon_unit_zero origin2]
  simp only [View.ld_unit_zero (S := S2048x795) origin2, View.ld_unit_zero (S := S795x512) origin2,
    View.ld_unit_zero (S := S1x512) origin2, View.ld_unit_zero (S := S512x256) origin2,
    View.ld_unit_zero (S := S1x256) origin2, View.ld_unit_zero (S := S256x128) origin2,
    View.ld_unit_zero (S := S1x128) origin2, View.ld_unit_zero (S := S128x14) origin2,
    View.ld_unit_zero (S := S1x14) origin2]
  funext y
  obtain ⟨p, j, rfl⟩ : ∃ (p : Fin 2048) (j : Fin 14), y = ix2 p j := ⟨y 0, y 1, eq_ix2 y⟩
  show Gen.k0_pay1 (Gen.k0_pay2 (iblk m c 0 t) (iblk m c 1 t) (iblk m c 2 t) (iblk m c 3 t) (iblk m c 4 t) (iblk m c 5 t))
      (iblk m c 6 t) (iblk m c 7 t) (iblk m c 8 t) (ix2 p j)
    = result m c (((cfg0.win 9).blk t).view.emb (ix2 p j))
  have hemb : ((cfg0.win 9).blk t).view.emb (ix2 p j) = ix2 (rowOf t p) j := by
    obtain ⟨-, -, e0, e1, -⟩ := index_facts t
    refine funext fun a => Fin.ext ?_
    match a with
    | ⟨0, _⟩ => show win0_9.index t (0 : Fin 2) * 2048 + 1 * p.val = t.val * 2048 + p.val; omega
    | ⟨1, _⟩ => show win0_9.index t (1 : Fin 2) * 14 + 1 * j.val = j.val; omega
  rw [hemb]
  exact BlockValue.payload_apply (iblk m c 0 t) (iblk m c 1 t) (iblk m c 2 t) (iblk m c 3 t) (iblk m c 4 t)
    (iblk m c 5 t) (iblk m c 6 t) (iblk m c 7 t) (iblk m c 8 t)
    (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
    (rowOf t p) p j (x_block m c t p) (W1_block m c t) (b1_block m c t) (W2_block m c t) (b2_block m c t)
    (W3_block m c t) (b3_block m c t) (W4_block m c t) (b4_block m c t)

/-- An index of the result array is in point `t`'s block iff each coordinate is in the block's range on its axis. -/
theorem mem_block (t : Fin cfg0.N) (i : S65536x14.Idx) :
    i ∈ ((cfg0.win 9).blk t).view.set ↔ ∀ a : Fin 2, win0_9.index t a * S2048x14.size a ≤ (i a).val
      ∧ (i a).val < win0_9.index t a * S2048x14.size a + S2048x14.size a := by
  show i ∈ ((View.whole main_v13).slice (win0_9.rect t)).set ↔ _
  rw [View.set_slice_whole, Rect.mem_set_unit]
  exact Iff.rfl

/-- Row `r` of the result is in the block of point `r / 2048`: the 32 blocks tile the array. -/
theorem covered (i : S65536x14.Idx) :
    ∃ t : Fin cfg0.N, (cfg0.win 9).flush t = true ∧ i ∈ ((cfg0.win 9).blk t).view.set := by
  have hN : cfg0.N = 32 := N_0
  have hi0 : (i 0).val < 65536 := (i 0).isLt
  have hi1 : (i 1).val < 14 := (i 1).isLt
  have ht : (i 0).val / 2048 < cfg0.N := by omega
  refine ⟨⟨(i 0).val / 2048, ht⟩, flush0_9 _, ?_⟩
  rw [mem_block]
  obtain ⟨-, -, e0, e1, -⟩ := index_facts ⟨(i 0).val / 2048, ht⟩
  have e0' : win0_9.index ⟨(i 0).val / 2048, ht⟩ (0 : Fin 2) = (i 0).val / 2048 := e0
  intro a
  match a with
  | ⟨0, _⟩ =>
    show win0_9.index ⟨(i 0).val / 2048, ht⟩ (0 : Fin 2) * 2048 ≤ (i 0).val
      ∧ (i 0).val < win0_9.index ⟨(i 0).val / 2048, ht⟩ (0 : Fin 2) * 2048 + 2048
    omega
  | ⟨1, _⟩ =>
    show win0_9.index ⟨(i 0).val / 2048, ht⟩ (1 : Fin 2) * 14 ≤ (i 1).val
      ∧ (i 1).val < win0_9.index ⟨(i 0).val / 2048, ht⟩ (1 : Fin 2) * 14 + 14
    omega

/-- THE RESULT ARRAY after the run is the network's output of the argument arrays. -/
theorem final (c : Dev nD) : (dats m 0 c).arrAt 9 cfg0.N = result m c :=
  (dats m 0 c).arrAt_eq_of_cover 9 (result m c) (fun t _ => flushed_eq m c t) covered

/-- The kernel's run: every weakly fair execution ends with the result array at the network's output and the arguments
    unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrayValue

end
-- ==== Proof.RefValue.lean ====
import proofs.«104562_j38878043964064_1_alg».proof.Proof.Gen.ReferenceIdeal.Read
import proofs.«104562_j38878043964064_1_alg».proof.Proof.Network

/-!
# The reference computes the network

The reference's host program is read one layer at a time. A layer is a `dot_general` of the previous activations with
the transposed weight matrix, a bias broadcast over the rows, and (for the hidden layers) the exponential linear unit
spelt as compare, exponential, subtract, multiply by one, select. At entry `(r, j)` the `dot_general` is the sum over
`k` of the previous layer at `(r, k)` times the weights at `(j, k)` — the transpose read back — so the layer is
`affine` (and `elu` of it) of the previous layer's row `r`.
-/

noncomputable section

namespace Cert.ReferenceIdeal.RefValue

open Cert.ReferenceIdeal Cert.ReferenceIdeal.Gen Cert.ReferenceIdeal.Read Idealize.ShloMosaic Idealize.ShloMosaic.ValueIdx
open Idealize.ShloMosaic.DenseLayer Cert.Network

/-- The reference's first hidden layer at `(r, j)`. -/
theorem layer1 (x0 : (⟨S65536x795, .f32⟩ : BufTy).Contents (Elt Ideal)) (x1 : (⟨S512x795, .f32⟩ : BufTy).Contents (Elt Ideal))
    (x2 : (⟨S512, .f32⟩ : BufTy).Contents (Elt Ideal)) (r : Fin 65536) (j : Fin 512) :
    val_main_v12 (F := Ideal) x0 x1 x2 (ix2 r j) = elu (affine x1 x2 (fun q => x0 (ix2 r q)) j) := by
  have el : ∀ k : Fin 795, lidx_main_v1 (ix2 r j) k = ix2 r k := fun k => funext fun a => by
    match a with
    | ⟨0, _⟩ => rfl
    | ⟨1, _⟩ => rfl
  have er : ∀ k : Fin 795, idx_main_v0 (ridx_main_v1 (ix2 r j) k) = ix2 j k := fun k => funext fun a => by
    match a with
    | ⟨0, _⟩ => rfl
    | ⟨1, _⟩ => rfl
  have eb : idx_main_v2 (idx_main_v3 (ix2 r j)) = ix1 j := funext fun a => by
    match a with
    | ⟨0, _⟩ => rfl
  simp only [val_main_v12_apply, val_main_v6_apply, val_main_v11_apply, val_main_v10_apply, val_main_v9_apply,
    val_main_v8_apply, val_main_v7_apply, val_main_v5_apply, val_main_cst_apply, val_main_cst_0_apply,
    val_main_cst_1_apply, val_main_v4_apply, val_main_v1_apply, val_main_v0_apply, val_main_v3_apply,
    val_main_v2_apply, el, er, eb]
  rfl

/-- The reference's second hidden layer at `(r, j)`, from its first. -/
theorem layer2 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal))
    (r : Fin 65536) (j : Fin 256) :
    val_main_v25 (F := Ideal) x0 x1 x2 x3 x4 (ix2 r j)
      = elu (affine x3 x4 (fun q => val_main_v12 (F := Ideal) x0 x1 x2 (ix2 r q)) j) := by
  have el : ∀ k : Fin 512, lidx_main_v14 (ix2 r j) k = ix2 r k := fun k => funext fun a => by
    match a with
    | ⟨0, _⟩ => rfl
    | ⟨1, _⟩ => rfl
  have er : ∀ k : Fin 512, idx_main_v13 (ridx_main_v14 (ix2 r j) k) = ix2 j k := fun k => funext fun a => by
    match a with
    | ⟨0, _⟩ => rfl
    | ⟨1, _⟩ => rfl
  have eb : idx_main_v15 (idx_main_v16 (ix2 r j)) = ix1 j := funext fun a => by
    match a with
    | ⟨0, _⟩ => rfl
  simp only [val_main_v25_apply, val_main_v19_apply, val_main_v24_apply, val_main_v23_apply, val_main_v22_apply, val_main_v21_apply, val_main_v20_apply, val_main_v18_apply, val_main_cst_2_apply, val_main_cst_3_apply, val_main_cst_4_apply, val_main_v17_apply, val_main_v14_apply, val_main_v13_apply, val_main_v16_apply, val_main_v15_apply, el, er, eb]
  rfl

/-- The reference's third hidden layer at `(r, j)`, from its second. -/
theorem layer3 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal))
    (r : Fin 65536) (j : Fin 128) :
    val_main_v38 (F := Ideal) x0 x1 x2 x3 x4 x5 x6 (ix2 r j)
      = elu (affine x5 x6 (fun q => val_main_v25 (F := Ideal) x0 x1 x2 x3 x4 (ix2 r q)) j) := by
  have el : ∀ k : Fin 256, lidx_main_v27 (ix2 r j) k = ix2 r k := fun k => funext fun a => by
    match a with
    | ⟨0, _⟩ => rfl
    | ⟨1, _⟩ => rfl
  have er : ∀ k : Fin 256, idx_main_v26 (ridx_main_v27 (ix2 r j) k) = ix2 j k := fun k => funext fun a => by
    match a with
    | ⟨0, _⟩ => rfl
    | ⟨1, _⟩ => rfl
  have eb : idx_main_v28 (idx_main_v29 (ix2 r j)) = ix1 j := funext fun a => by
    match a with
    | ⟨0, _⟩ => rfl
  simp only [val_main_v38_apply, val_main_v32_apply, val_main_v37_apply, val_main_v36_apply, val_main_v35_apply, val_main_v34_apply, val_main_v33_apply, val_main_v31_apply, val_main_cst_5_apply, val_main_cst_6_apply, val_main_cst_7_apply, val_main_v30_apply, val_main_v27_apply, val_main_v26_apply, val_main_v29_apply, val_main_v28_apply, el, er, eb]
  rfl

/-- The reference's last layer at `(r, j)`, from its third hidden layer: no activation. -/
theorem layer4 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) (x7 : (⟨S14x128, .f32⟩ : BufTy).Contents (Elt Ideal)) (x8 : (⟨S14, .f32⟩ : BufTy).Contents (Elt Ideal))
    (r : Fin 65536) (j : Fin 14) :
    val_main_v43 (F := Ideal) x0 x1 x2 x3 x4 x5 x6 x7 x8 (ix2 r j)
      = affine x7 x8 (fun q => val_main_v38 (F := Ideal) x0 x1 x2 x3 x4 x5 x6 (ix2 r q)) j := by
  have el : ∀ k : Fin 128, lidx_main_v40 (ix2 r j) k = ix2 r k := fun k => funext fun a => by
    match a with
    | ⟨0, _⟩ => rfl
    | ⟨1, _⟩ => rfl
  have er : ∀ k : Fin 128, idx_main_v39 (ridx_main_v40 (ix2 r j) k) = ix2 j k := fun k => funext fun a => by
    match a with
    | ⟨0, _⟩ => rfl
    | ⟨1, _⟩ => rfl
  have eb : idx_main_v41 (idx_main_v42 (ix2 r j)) = ix1 j := funext fun a => by
    match a with
    | ⟨0, _⟩ => rfl
  simp only [val_main_v43_apply, val_main_v40_apply, val_main_v39_apply, val_main_v42_apply, val_main_v41_apply, el, er, eb]
  rfl

/-- The reference's result array is the network's output of the argument arrays: the four layers composed, row by
    row. -/
theorem result_eq (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) (x7 : (⟨S14x128, .f32⟩ : BufTy).Contents (Elt Ideal)) (x8 : (⟨S14, .f32⟩ : BufTy).Contents (Elt Ideal)) :
    val_main_v43 (F := Ideal) x0 x1 x2 x3 x4 x5 x6 x7 x8 = output x0 x1 x2 x3 x4 x5 x6 x7 x8 := by
  funext i
  obtain ⟨r, j, rfl⟩ : ∃ (r : Fin 65536) (j : Fin 14), i = ix2 r j := ⟨i 0, i 1, eq_ix2 i⟩
  rw [layer4]
  simp only [layer3, layer2, layer1]
  rfl

end Cert.ReferenceIdeal.RefValue

end
-- ==== Proof.lean ====
/-
  The kernel is a four-layer perceptron, 795 → 512 → 256 → 128 → 14 with the exponential linear unit after the first
  three layers, on 65536 rows: 32 grid points of 2048 rows each, every layer a matrix-unit product of the block with the
  host-transposed weights plus a broadcast bias row, the activations handed on in bf16. The reference is the same four
  layers on the host over the whole array, in f32. Over the extended reals a change of float format is the identity, a
  transposed matrix is the matrix read at swapped indices, and a product into a zero accumulator is the plain sum of
  products: so both programs end with `Cert.Network.output` of the nine argument arrays, entry by entry the same
  nested sums in the same order — no law of arithmetic is needed to join them, and the finiteness of the inputs is
  never used.

  The kernel's side is `Proof/KernelBlock.lean` (the body's arithmetic at one entry of its block) and
  `Proof/KernelValue.lean` (the blocks read off the arrays, the 32 blocks tiling the result); the reference's side is
  `Proof/RefValue.lean` (the host program layer by layer). The frames are the generated ones; the idealization pass
  rewrote nothing, so `preserves` has no conjunct.
-/
import proofs.«104562_j38878043964064_1_alg».proof.Defs
import proofs.«104562_j38878043964064_1_alg».proof.Proof.Gen.Kernel
import proofs.«104562_j38878043964064_1_alg».proof.Proof.Gen.Kernel.Frame
import proofs.«104562_j38878043964064_1_alg».proof.Proof.Gen.KernelIdeal
import proofs.«104562_j38878043964064_1_alg».proof.Proof.Gen.KernelIdeal.Frame
import proofs.«104562_j38878043964064_1_alg».proof.Proof.Gen.KernelIdeal.Value
import proofs.«104562_j38878043964064_1_alg».proof.Proof.Gen.ReferenceIdeal
import proofs.«104562_j38878043964064_1_alg».proof.Proof.Gen.ReferenceIdeal.Run
import proofs.«104562_j38878043964064_1_alg».proof.Proof.Gen.ReferenceIdeal.Read
import proofs.«104562_j38878043964064_1_alg».proof.Proof.Gen.Pre_finite_inputs
import proofs.«104562_j38878043964064_1_alg».proof.Proof.KernelValue
import proofs.«104562_j38878043964064_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both programs end with the network's output of the argument arrays; the memories agree on those. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
